-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 35
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S128x128, .f32⟩
  | .hbm, ⟨32, _⟩ => ⟨S128x128, .f32⟩
  | .hbm, ⟨33, _⟩ => ⟨S1x128, .f32⟩
  | .hbm, ⟨34, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S128x128, .f32⟩
  | .hbm, ⟨32, _⟩ => ⟨S50000x128, .f32⟩
  | .hbm, ⟨33, _⟩ => ⟨S128x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Body.lean ====
/-
  The kernel body's arithmetic, read at one entry of the output block. From a block `x0` of node features, the matching
  block `x1` of neighbour means, the two transposed weights `x2` (neighbour) and `x3` (self) and the bias row `x4`,
  the body stores, at row `p` and feature `q`,
      (∑ₖ x0[p,k] · x3[k,q] + x4[0,q]) + ∑ₖ x1[p,k] · x2[k,q]:
  the roundings to the narrow format are the identity on extended reals, each product into a zero accumulator is the
  plain sum over the contracted axis, the bias row is broadcast down the rows, and the casts to the same shape do nothing.
-/
import proofs.«128920_j56556129354467_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The product's operand indices, axis by axis -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a weight into the zero accumulator, at row `p` and column `q`: the sum over the 128 contracted
    positions of the block's row against the weight's column. -/
theorem matmul_zero_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast down the 5000 rows, at row `p` and column `q`, is the row's entry at `q`. -/
theorem bias_bcast_apply (r : FVec Ideal S1x128 .f32) (p : Fin 5000) (q : Fin 128) :
    broadcastTo S5000x128 r broadcasts_S1x128_S5000x128 (ix2 p q) = r (ix2 0 q) :=
  broadcastTo_apply r broadcasts_S1x128_S5000x128 (ix2 p q) (ix2 0 q) (fun a => by
    match a with
    | ⟨0, _⟩ => show 0 = if (1 : Nat) = 1 then 0 else _; rw [if_pos rfl]
    | ⟨1, _⟩ => show q.val = if (128 : Nat) = 1 then 0 else q.val; rw [if_neg (by decide)])

/-- THE BODY'S STORED VALUE at row `p`, feature `q`. -/
theorem pay_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = (∑ k : Fin 128, x0 (ix2 p k) * x3 (ix2 k q) + x4 (ix2 0 q)) + ∑ k : Fin 128, x1 (ix2 p k) * x2 (ix2 k q) := by
  unfold k0_pay1
  rw [addf_apply, addf_apply, matmul_zero_apply, matmul_zero_apply, bias_bcast_apply]
  simp only [truncf_apply, shapeCast_self]

end Cert.KernelIdeal.Body

end
-- ==== Proof.Spec.lean ====
/-
  The mean-aggregating graph convolution's dense half, as one function of arrays over the extended reals.

  Given node features `feat` [50000,128], the neighbour means `H` [50000,128] (whatever they are: both programs build
  them by the same gather, segment sums and quotient), the two weight matrices `Wn`, `Ws` [128,128] (stored output
  feature first) and the bias `b` [128], the layer's output at node `i`, feature `j` is
      (∑ₖ feat[i,k] · Ws[j,k] + b[j]) + ∑ₖ H[i,k] · Wn[j,k].
  The additions are kept in this order; nothing here needs an algebraic law, so no entry has to be finite.
-/
import Idealize.ShloMosaic.PureOps.Ideal
import Idealize.ShloMosaic.Lib.ValueIdx

noncomputable section

namespace Cert.Sage

open Idealize.ShloMosaic Idealize.ShloMosaic.ValueIdx
open scoped BigOperators

/-- The layer's output: self term plus bias, then the neighbour term, each a sum over the 128 input features. -/
def out (feat H : (⟨2, ![50000, 128]⟩ : Shape).Idx → EReal) (Wn Ws : (⟨2, ![128, 128]⟩ : Shape).Idx → EReal)
    (b : (⟨1, ![128]⟩ : Shape).Idx → EReal) : (⟨2, ![50000, 128]⟩ : Shape).Idx → EReal := fun i =>
  (∑ k : Fin 128, feat (ix2 (i 0) k) * Ws (ix2 (i 1) k) + b (ix1 (i 1))) + ∑ k : Fin 128, H (ix2 (i 0) k) * Wn (ix2 (i 1) k)

end Cert.Sage

end
-- ==== Proof.KernelValue.lean ====
/-
  What the kernel leaves in its result array, as one function of the arrays its one region finds.

  The region's five inputs are: the node features (argument 0), the neighbour means (the host quotient written just
  before the region), the two weights transposed by the host, and the bias as a one-row matrix. The grid has ten
  points; point `t` is handed rows `5000 t … 5000 t + 4999` of the features and of the means and the whole of the
  three small arrays, and writes rows `5000 t … 5000 t + 4999` of the result. So entry `(5000 t + p, q)` of the result is
  the body's value at `(p, q)` of those blocks, which is the layer's formula at `(5000 t + p, q)`; the ten row blocks
  tile the 50000 rows, hence the whole array is that formula. All of this is said of ARBITRARY arrays in the five
  input places (nothing depends on what they hold), and only at the end of the arrays the region actually finds.
-/
import proofs.«128920_j56556129354467_1_alg».proof.Proof.Gen.KernelIdeal.Value
import proofs.«128920_j56556129354467_1_alg».proof.Proof.Body
import proofs.«128920_j56556129354467_1_alg».proof.Proof.Spec
import Idealize.ShloMosaic.Lib.Pipeline.Value
import Idealize.ShloMosaic.Lib.Tactic

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The formula in the region's own layout -/

/-- The layer's formula over the region's inputs as the region holds them: weights already transposed (input feature
    first), the bias a one-row matrix. -/
def regionForm (feat H : S50000x128.Idx → EReal) (WnT WsT : S128x128.Idx → EReal) (b2 : S1x128.Idx → EReal) :
    S50000x128.Idx → EReal := fun i =>
  (∑ k : Fin 128, feat (ix2 (i 0) k) * WsT (ix2 k (i 1)) + b2 (ix2 0 (i 1))) + ∑ k : Fin 128, H (ix2 (i 0) k) * WnT (ix2 k (i 1))

/-- With the host's transposes and one-row cast read away, it is the layer's output of the stored weights and bias. -/
theorem regionForm_eq (feat H : S50000x128.Idx → EReal) (Wn Ws : S128x128.Idx → EReal) (b : S128.Idx → EReal) :
    regionForm feat H (transpose S128x128 [1, 0] Wn transposes_S128x128_S128x128_1_0)
        (transpose S128x128 [1, 0] Ws transposes_S128x128_S128x128_1_0) (shapeCast S1x128 b shapeCasts_S128_S1x128)
      = Cert.Sage.out feat H Wn Ws b := by
  funext i
  have tr : ∀ (W : S128x128.Idx → EReal) (k : Fin 128),
      transpose S128x128 [1, 0] W transposes_S128x128_S128x128_1_0 (ix2 k (i 1)) = W (ix2 (i 1) k) := fun W k =>
    transpose_apply [1, 0] W transposes_S128x128_S128x128_1_0 (ix2 k (i 1)) (ix2 (i 1) k) (fun b => match b with
      | ⟨0, _⟩ => rfl
      | ⟨1, _⟩ => rfl)
  have rs : shapeCast S1x128 b shapeCasts_S128_S1x128 (ix2 0 (i 1)) = b (ix1 (i 1)) :=
    shapeCast_apply b shapeCasts_S128_S1x128 (ix2 0 (i 1)) (ix1 (i 1)) (by
      rw [Shape.rowMajor_val_one, Shape.rowMajor_val_two]; show (i 1).val = 0 * 128 + (i 1).val; omega)
  unfold regionForm Cert.Sage.out
  simp only [tr, rs]

/-! ## The index maps, decided over the ten points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input window's block at a point, read off an arbitrary array -/

/-- Window 0's block at point `t` holds rows `5000 t …` of its array. -/
theorem rows0_apply (A : S50000x128.Idx → EReal) (t : Fin cfg0.N) (x : S5000x128.Idx) (k : S50000x128.Idx)
    (hk0 : (k 0).val = 5000 * t.val + (x 0).val) (hk1 : (k 1).val = (x 1).val) :
    (((cfg0.win 0).blk t).view.read (Elt Ideal) A : S5000x128.Idx → EReal) x = A k := by
  obtain ⟨e0, e1, -⟩ := idx_facts t
  rw [View.read_apply]
  show A _ = A _
  refine congrArg A (funext fun a => Fin.ext ?_)
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- Window 1's block at point `t` holds rows `5000 t …` of its array. -/
theorem rows1_apply (A : S50000x128.Idx → EReal) (t : Fin cfg0.N) (x : S5000x128.Idx) (k : S50000x128.Idx)
    (hk0 : (k 0).val = 5000 * t.val + (x 0).val) (hk1 : (k 1).val = (x 1).val) :
    (((cfg0.win 1).blk t).view.read (Elt Ideal) A : S5000x128.Idx → EReal) x = A k := by
  obtain ⟨-, -, e0, e1, -⟩ := idx_facts t
  rw [View.read_apply]
  show A _ = A _
  refine congrArg A (funext fun a => Fin.ext ?_)
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- Window 2's block is its whole array, at every point. -/
theorem whole2_eq (A : S128x128.Idx → EReal) (t : Fin cfg0.N) :
    (((cfg0.win 2).blk t).view.read (Elt Ideal) A : S128x128.Idx → EReal) = A := by
  obtain ⟨-, -, -, -, e0, e1, -⟩ := idx_facts t
  funext x
  rw [View.read_apply]
  show A _ = A x
  refine congrArg A (funext fun a => Fin.ext ?_)
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- Window 3's block is its whole array, at every point. -/
theorem whole3_eq (A : S128x128.Idx → EReal) (t : Fin cfg0.N) :
    (((cfg0.win 3).blk t).view.read (Elt Ideal) A : S128x128.Idx → EReal) = A := by
  obtain ⟨-, -, -, -, -, -, e0, e1, -⟩ := idx_facts t
  funext x
  rw [View.read_apply]
  show A _ = A x
  refine congrArg A (funext fun a => Fin.ext ?_)
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- Window 4's block is its whole one-row array, at every point. -/
theorem whole4_eq (A : S1x128.Idx → EReal) (t : Fin cfg0.N) :
    (((cfg0.win 4).blk t).view.read (Elt Ideal) A : S1x128.Idx → EReal) = A := by
  obtain ⟨-, -, -, -, -, -, -, -, e0, e1, -⟩ := idx_facts t
  funext x
  rw [View.read_apply]
  show A _ = A x
  refine congrArg A (funext fun a => Fin.ext ?_)
  match a with
  | ⟨0, _⟩ => show win0_4.index t 0 * 1 + 1 * (x 0).val = (x 0).val; rw [e0]; omega
  | ⟨1, _⟩ => show win0_4.index t 1 * 128 + 1 * (x 1).val = (x 1).val; rw [e1]; omega

/-! ## One entry of one block -/

/-- The body's value at `y` of blocks that hold, row for row, two arrays' rows at array row `i 0`, and the three small
    arrays whole, is the region's formula at `i` when `y` and `i` name the same feature. -/
theorem entry_eq (x0 x1 : Vec Ideal S5000x128 .f32) (x2 x3 : Vec Ideal S128x128 .f32) (x4 : Vec Ideal S1x128 .f32)
    (feat H : S50000x128.Idx → EReal) (WnT WsT : S128x128.Idx → EReal) (b2 : S1x128.Idx → EReal)
    (y : S5000x128.Idx) (i : S50000x128.Idx)
    (h0 : ∀ k : Fin 128, x0 (ix2 (y 0) k) = feat (ix2 (i 0) k))
    (h1 : ∀ k : Fin 128, x1 (ix2 (y 0) k) = H (ix2 (i 0) k))
    (h2 : x2 = WnT) (h3 : x3 = WsT) (h4 : x4 = b2) (hq : (i 1).val = (y 1).val) :
    k0_pay1 (F := Ideal) x0 x1 x2 x3 x4 y = regionForm feat H WnT WsT b2 i := by
  subst h2 h3 h4
  obtain ⟨p, q, rfl⟩ : ∃ (p : Fin 5000) (q : Fin 128), y = ix2 p q := ⟨y 0, y 1, eq_ix2 y⟩
  have e : i 1 = q := Fin.ext hq
  have h0' : ∀ k : Fin 128, x0 (ix2 p k) = feat (ix2 (i 0) k) := h0
  have h1' : ∀ k : Fin 128, x1 (ix2 p k) = H (ix2 (i 0) k) := h1
  rw [Body.pay_apply]
  unfold regionForm
  simp only [h0', h1', e] <;> rfl

/-! ## What each point writes back, and the whole array -/

theorem hz : (![0, 0] : Fin 2 → Nat) = fun _ => 0 := funext fun a => by fin_cases a <;> rfl

/-- The body's result on point `t`'s blocks of ANY five arrays is block `t` of the region's formula of those arrays. -/
theorem flushed_form (A0 A1 : S50000x128.Idx → EReal) (A2 A3 : S128x128.Idx → EReal) (A4 : S1x128.Idx → EReal) (t : Fin cfg0.N) :
    (cfg0.win 5).cut (grid0.coords t)
        (out0_5 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (regionForm A0 A1 A2 A3 A4) := by
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  have r0 : ((((cfg0.win 5).blk t).view.emb j) 0).val = 5000 * t.val + (j 0).val := by
    show win0_5.index t 0 * 5000 + 1 * (j 0).val = _; rw [e0]; omega
  have r1 : ((((cfg0.win 5).blk t).view.emb j) 1).val = (j 1).val := by
    show win0_5.index t 1 * 128 + 1 * (j 1).val = _; rw [e1]; omega
  exact entry_eq (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) A0 A1 A2 A3 A4 j (((cfg0.win 5).blk t).view.emb j)
    (fun k => rows0_apply A0 t (ix2 (j 0) k) (ix2 ((((cfg0.win 5).blk t).view.emb j) 0) k) r0 rfl)
    (fun k => rows1_apply A1 t (ix2 (j 0) k) (ix2 ((((cfg0.win 5).blk t).view.emb j) 0) k) r0 rfl)
    (whole2_eq A2 t) (whole3_eq A3 t) (whole4_eq A4 t) r1

/-- An index of the result is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- The ten row blocks tile the result: row `r` lies in the block of point `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, e0, e1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ 0 * 5000 ≤ (i 0).val ∧ (i 0).val < win0_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ 1 * 128 ≤ (i 1).val ∧ (i 1).val < win0_5.index ⟨(i 0).val / 5000, ht⟩ 1 * 128 + 128
    rw [e1]; omega

/-! ## At the arrays the region finds -/

variable (m : (ℓ : Loc nD τ sig) → Buf (Elt Ideal) ℓ) (ρ : Dev nD → PrngReg)

/-- WHAT POINT `t` WRITES BACK is block `t` of the region's formula of the arrays the region finds. -/
theorem flushed_eq (c : Dev nD) (t : Fin cfg0.N) :
    (dats m 0 c).flushed 5 t = ((cfg0.win 5).blk t).view.read (Elt Ideal)
      (regionForm (V m c main_arg0) (V m c main_v18) (V m c main_v19) (V m c main_v20) (V m c main_v21)) := by
  rw [Cert.KernelIdeal.Value.flushed5]
  unfold iblk
  exact flushed_form (V m c main_arg0) (V m c main_v18) (V m c main_v19) (V m c main_v20) (V m c main_v21) t

/-- THE RESULT ARRAY after the run is the region's formula everywhere. -/
theorem final (c : Dev nD) : (dats m 0 c).arrAt 5 cfg0.N
    = regionForm (V m c main_arg0) (V m c main_v18) (V m c main_v19) (V m c main_v20) (V m c main_v21) :=
  (dats m 0 c).arrAt_eq_of_cover 5 _ (fun t _ => flushed_eq m c t) cover

end Cert.KernelIdeal.Arrays

end
-- ==== Proof.Glue.lean ====
/-
  The arrays the region finds, as terms of the arguments. Before the region the host gathers the source nodes' feature
  rows, adds them into their destination nodes' rows, counts each destination's edges, and divides each row sum by the
  count (at least one): the neighbour means. It also transposes the two weights and views the bias as one row. Each of
  these arrays, when the region is entered, is the host operations' composed term of the arguments.
-/
import proofs.«128920_j56556129354467_1_alg».proof.Proof.Gen.KernelIdeal.Frame
import Idealize.ShloMosaic.Lib.StableHlo.Run
import Idealize.ShloMosaic.PureOps.Ideal

noncomputable section

namespace Cert.KernelIdeal.Glue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The neighbour means as the host builds them from the features `x0`, the source indices `x1` (a negative index
    wrapped once by the node count) and the destination indices `x2`: row sums over incoming edges, each divided by
    the larger of the edge count and one. -/
def neighMean (x0 : (⟨S50000x128, .f32⟩ : BufTy).Contents (Elt Ideal)) (x1 x2 : (⟨S800000, .i32⟩ : BufTy).Contents (Elt Ideal)) :
    (⟨S50000x128, .f32⟩ : BufTy).Contents (Elt Ideal) :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 x2)
      (Host.gather gather_S50000x128_S800000x1_S800000x128_1_0_n_n_0_1_1128 x0
        (broadcastInDim S800000x1 ![0] bcast_S800000_S800000x1_0
          (select (cmpi .slt x1 (broadcastInDim S800000 ![] bcast_S_S800000 (constantI S_ 32 0#32)))
            (addi x1 (broadcastInDim S800000 ![] bcast_S_S800000 (constantI S_ 32 50000#32))) x1))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 x2)
            (broadcastInDim S800000 ![] bcast_S_S800000 (constant (F := Ideal) S_ .f32 0x3F800000#32)))
          (broadcastInDim S50000 ![] bcast_S_S50000 (constant (F := Ideal) S_ .f32 0x3F800000#32)))))

set_option maxHeartbeats 2000000 in
/-- The region finds the neighbour means in the quotient's buffer. -/
theorem mean_eq (c : Dev nD) :
    (V m c main_v18 : S50000x128.Idx → EReal)
      = neighMean (m ((c.tc : Thread nD τ).loc main_arg0)) (m ((c.tc : Thread nD τ).loc main_arg1)) (m ((c.tc : Thread nD τ).loc main_arg2)) := by
  dsimp only [V, hostOps0]; after_results_simp <;> rfl

/-- The region finds the neighbour weight transposed. -/
theorem wn_eq (c : Dev nD) :
    (V m c main_v19 : S128x128.Idx → EReal)
      = transpose S128x128 [1, 0] (m ((c.tc : Thread nD τ).loc main_arg3)) transposes_S128x128_S128x128_1_0 := by
  dsimp only [V, hostOps0]; after_results_simp <;> rfl

/-- The region finds the self weight transposed. -/
theorem ws_eq (c : Dev nD) :
    (V m c main_v20 : S128x128.Idx → EReal)
      = transpose S128x128 [1, 0] (m ((c.tc : Thread nD τ).loc main_arg4)) transposes_S128x128_S128x128_1_0 := by
  dsimp only [V, hostOps0]; after_results_simp <;> rfl

/-- The region finds the bias as one row. -/
theorem bias_eq (c : Dev nD) :
    (V m c main_v21 : S1x128.Idx → EReal)
      = shapeCast S1x128 (m ((c.tc : Thread nD τ).loc main_arg5)) shapeCasts_S128_S1x128 := by
  dsimp only [V, hostOps0]; after_results_simp <;> rfl

end Cert.KernelIdeal.Glue

end
-- ==== Proof.KernelRun.lean ====
/-
  The kernel's run, read: the result array ends at the layer's output function of the ARGUMENTS and of the neighbour
  means the host builds from them; the arguments are unchanged. The region's formula (over the arrays it finds) is turned
  into this by naming each array it finds as the host's term of the arguments and reading the transposes and the one-row
  cast away.
-/
import proofs.«128920_j56556129354467_1_alg».proof.Proof.KernelValue
import proofs.«128920_j56556129354467_1_alg».proof.Proof.Glue

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The layer's output of the arguments as launched, the neighbour means being the host's. -/
abbrev value (c : Dev nD) : S50000x128.Idx → EReal :=
  Cert.Sage.out (m ((c.tc : Thread nD τ).loc main_arg0))
    (Glue.neighMean (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5))

/-- The result array after the run is that value. -/
theorem final (c : Dev nD) : (dats m 0 c).arrAt 5 cfg0.N = value m c := by
  rw [Arrays.final, V_main_arg0, Glue.mean_eq, Glue.wn_eq, Glue.ws_eq, Glue.bias_eq, Arrays.regionForm_eq]

/-- Every weakly fair execution ends with the result at that value and the arguments as launched. -/
theorem run : θ_run defs (onTc (τ := τ) (main (F := Ideal))) ⟨m, fun _ => 0, ρ⟩ fun r => ∀ c : Dev nD,
      r.2.mem ((c : Thread nD τ).loc main_v22) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Result

end
-- ==== Proof.RefValue.lean ====
/-
  The reference's result, read index by index, is the layer's output function (Spec) of the argument arrays and of the
  neighbour means the reference itself builds (its quotient of the segment sums, kept as one unopened array):
  the two `dot_general`s against transposed weights are the sums over the 128 input features of a row of the left
  operand against a ROW of the stored weight, and the bias broadcast twice is the bias at the output feature.
-/
import proofs.«128920_j56556129354467_1_alg».proof.Proof.Gen.ReferenceIdeal.Read
import proofs.«128920_j56556129354467_1_alg».proof.Proof.Spec

noncomputable section

namespace Cert.ReferenceIdeal.RefValue

open Cert.ReferenceIdeal Cert.ReferenceIdeal.Read Idealize.ShloMosaic Idealize.ShloMosaic.ValueIdx
open scoped BigOperators

/-- The reference's last stage is the layer's output of the arguments and of its own neighbour-mean stage. -/
theorem result_eq (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal)) :
    val_main_v26 (F := Ideal) x0 x1 x2 x3 x4 x5 = Cert.Sage.out x0 (val_main_v18 (F := Ideal) x0 x1 x2) x3 x4 x5 := by
  funext i
  -- the operands' indices, as coordinates
  have e1 : ∀ k : Fin 128, lidx_main_v22 i k = ix2 (i 0) k := fun k => funext fun a => Fin.ext (by
    match a with | ⟨0, _⟩ => rfl | ⟨1, _⟩ => rfl)
  have e2 : ∀ k : Fin 128, idx_main_v21 (ridx_main_v22 i k) = ix2 (i 1) k := fun k => funext fun a => Fin.ext (by
    match a with | ⟨0, _⟩ => rfl | ⟨1, _⟩ => rfl)
  have e3 : idx_main_v23 (idx_main_v24 i) = ix1 (i 1) := funext fun a => Fin.ext (by
    match a with | ⟨0, _⟩ => rfl)
  have e4 : ∀ k : Fin 128, lidx_main_v20 i k = ix2 (i 0) k := fun k => funext fun a => Fin.ext (by
    match a with | ⟨0, _⟩ => rfl | ⟨1, _⟩ => rfl)
  have e5 : ∀ k : Fin 128, idx_main_v19 (ridx_main_v20 i k) = ix2 (i 1) k := fun k => funext fun a => Fin.ext (by
    match a with | ⟨0, _⟩ => rfl | ⟨1, _⟩ => rfl)
  rw [val_main_v26_apply, val_main_v25_apply, val_main_v22_apply, val_main_v24_apply, val_main_v23_apply, val_main_v20_apply]
  simp only [val_main_v21_apply, val_main_v19_apply, e1, e2, e3, e4, e5, Ideal.addf_def]
  rfl

end Cert.ReferenceIdeal.RefValue

end
-- ==== Proof.Bridge.lean ====
/-
  Both programs build the neighbour means by the same host operations of the same arguments (gather the source rows, add
  them into the destination rows, count, divide by the count or one): the kernel side's term and the reference's stage
  are one term.
-/
import proofs.«128920_j56556129354467_1_alg».proof.Proof.Glue
import proofs.«128920_j56556129354467_1_alg».proof.Proof.Gen.ReferenceIdeal.Read

noncomputable section

namespace Cert.Bridge

open Idealize.ShloMosaic

/-- The neighbour means the kernel's host prefix builds are the reference's quotient stage. -/
theorem neighMean_eq (x0 : (⟨Cert.KernelIdeal.S50000x128, .f32⟩ : BufTy).Contents (Elt Ideal))
    (x1 x2 : (⟨Cert.KernelIdeal.S800000, .i32⟩ : BufTy).Contents (Elt Ideal)) :
    Cert.KernelIdeal.Glue.neighMean x0 x1 x2 = Cert.ReferenceIdeal.Read.val_main_v18 (F := Ideal) x0 x1 x2 := rfl

end Cert.Bridge

end
-- ==== Proof.lean ====
/-
  The certificate of the mean-aggregating graph convolution: the kernel computes the neighbour means on the host exactly
  as the reference does and hands them, with the node features, the transposed weights and the bias row, to one region
  that computes, ten row blocks of 5000 nodes at a time,
      out[i, j] = (∑ₖ feat[i,k] · Ws[j,k] + b[j]) + ∑ₖ H[i,k] · Wn[j,k];
  the reference computes the same two products against the transposed weights, adds the broadcast bias to the self term
  and then the neighbour term. On the extended reals the kernel's roundings to the narrow format are the identity and
  each product is the plain sum over the 128 input features, so both results are that one function of the arguments,
  with the additions in the same order: no algebraic law is used and the precondition is never opened.
  The three frames are the generated ones (the reference's its generated run with the result dropped); the idealization
  rewrote nothing.
-/
import proofs.«128920_j56556129354467_1_alg».proof.Defs
import proofs.«128920_j56556129354467_1_alg».proof.Proof.Gen.Kernel
import proofs.«128920_j56556129354467_1_alg».proof.Proof.Gen.Kernel.Skeleton
import proofs.«128920_j56556129354467_1_alg».proof.Proof.Gen.Kernel.Launch
import proofs.«128920_j56556129354467_1_alg».proof.Proof.Gen.Kernel.Points
import proofs.«128920_j56556129354467_1_alg».proof.Proof.Gen.Kernel.Frame
import proofs.«128920_j56556129354467_1_alg».proof.Proof.Gen.KernelIdeal
import proofs.«128920_j56556129354467_1_alg».proof.Proof.Gen.KernelIdeal.Skeleton
import proofs.«128920_j56556129354467_1_alg».proof.Proof.Gen.KernelIdeal.Launch
import proofs.«128920_j56556129354467_1_alg».proof.Proof.Gen.KernelIdeal.Points
import proofs.«128920_j56556129354467_1_alg».proof.Proof.Gen.KernelIdeal.Frame
import proofs.«128920_j56556129354467_1_alg».proof.Proof.Gen.ReferenceIdeal
import proofs.«128920_j56556129354467_1_alg».proof.Proof.Gen.Pre_finite_inputs
import proofs.«128920_j56556129354467_1_alg».proof.Proof.Gen.KernelIdeal.Value
import proofs.«128920_j56556129354467_1_alg».proof.Proof.Gen.ReferenceIdeal.Run
import proofs.«128920_j56556129354467_1_alg».proof.Proof.Gen.ReferenceIdeal.Read
import proofs.«128920_j56556129354467_1_alg».proof.Proof.KernelRun
import proofs.«128920_j56556129354467_1_alg».proof.Proof.RefValue
import proofs.«128920_j56556129354467_1_alg».proof.Proof.Bridge
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end; the kernel's result is the layer's output of its arguments and of the host's neighbour means, the
    reference's last stage is the layer's output of ITS arguments and of its own quotient stage; the arguments agree and
    the two neighbour-mean terms are one. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v26_eq, Cert.ReferenceIdeal.RefValue.result_eq, a0, a1, a2, a3, a4, a5,
    ← Cert.Bridge.neighMean_eq]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
